-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S16384x32 .f32) (main_arg1 : FVec F S16384x16384 .f32) (main_arg2 : IVec S16384x16384 32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  main_v8
-- ==== Kernel.lean ====
abbrev S16384x32 : Shape := ⟨2, ![16384, 32]⟩
abbrev S16384x16384 : Shape := ⟨2, ![16384, 16384]⟩
abbrev S1024x1024 : Shape := ⟨2, ![1024, 1024]⟩
abbrev S1024x32 : Shape := ⟨2, ![1024, 32]⟩

abbrev nBuf : Space → Nat
  | .hbm => 4
  | .vmem => 9
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S16384x16384, .i32⟩
  | .hbm, ⟨3, _⟩ => ⟨S16384x32, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  dot_S1024x1024_S1024x32_S1024x32_1_0_0_1_n_n_wf : DotDims.WF S1024x1024 S1024x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x16384.size a
  hwx0_0 : ∀ i : grid0.Coords, EltTy.bits .f32 = 32 ∨ (Rect.block (s := S16384x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x16384.size a
  hwx0_1 : ∀ i : grid0.Coords, EltTy.bits .i32 = 32 ∨ (Rect.block (s := S16384x16384) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S16384x32.size a
  hwx0_2 : ∀ i : grid0.Coords, EltTy.bits .f32 = 32 ∨ (Rect.block (s := S16384x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S16384x32.size a
  hwx0_3 : ∀ i : grid0.Coords, EltTy.bits .f32 = 32 ∨ (Rect.block (s := S16384x32) S1024x32.size (cc0_transform_3 i) (hinb0_3 i)).WholeWords (EltTy.packing .f32)

variable [Facts₀]

def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x32 : Shape := ⟨2, ![16384, 32]⟩
abbrev S16384x16384 : Shape := ⟨2, ![16384, 16384]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S16384x16384, .i32⟩
  | .hbm, ⟨3, _⟩ => ⟨S_, .i32⟩
  | .hbm, ⟨4, _⟩ => ⟨S16384x16384, .i32⟩
  | .hbm, ⟨5, _⟩ => ⟨S16384x16384, .i1⟩
  | .hbm, ⟨6, _⟩ => ⟨S_, .f32⟩
  | .hbm, ⟨7, _⟩ => ⟨S_, .f32⟩
  | .hbm, ⟨8, _⟩ => ⟨S16384x16384, .f32⟩
  | .hbm, ⟨9, _⟩ => ⟨S16384x16384, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  dot_S16384x16384_S16384x32_S16384x32_1_0_0_1_n_n_wf : DotDims.WF S16384x16384 S16384x32 S16384x32 [1] [0] [0] [1] [] []

variable [Facts₀]

def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf

class Facts : Prop extends Facts₀ where

variable [Facts]
-- ==== Proof.Pieces.lean ====
/-
  What one grid step leaves behind, as a value.

  The kernel keeps a running block in a scratch buffer. A step at the first column tile stores the zero block and then
  the update of it; a step at any later column tile stores the update of what the step before left; a step at the last
  column tile also copies the updated block into the output block. Each of these is read here as the update term of
  the step's three input blocks and the block it started from: a store through the whole buffer leaves its payload,
  and a load through the whole buffer reads what is there.
-/
import proofs.«124994_j15899968930166_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A step at the first column tile leaves the update of the zero block in the scratch. -/
theorem scratch_first (c : Dev nD) (i : grid0.Coords) (a2 : Memref sig .tc .vmem S1024x1024 .f32) (h2 : a2.IsWhole) (a3 : Memref sig .tc .vmem S1024x1024 .i32) (h3 : a3.IsWhole) (a4 : Memref sig .tc .vmem S1024x32 .f32) (h4 : a4.IsWhole) (a5 : Memref sig .tc .vmem S1024x32 .f32) (h5 : a5.IsWhole) (a6 : Memref sig .tc .vmem S1024x32 .f32) (h6 : a6.IsWhole) (hc0 : cond0_0 i) (hc1 : ¬cond0_1 i)
    (x0 : Vec F S1024x1024 .f32) (x1 : Vec F S1024x1024 .i32) (x2 : Vec F S1024x32 .f32) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x32) hz, View.readCov_unit_zero (S := S1024x32) _ hz]
  simp only [View.readAt_eq_ld, h2.read_unread, h3.read_unread, h4.read_unread, h6.read_unread,
    View.ld_unit_zero (S := S1024x1024) hz, View.ld_unit_zero (S := S1024x32) hz]

/-- A step at a middle column tile leaves the update of what the step before left. -/
theorem scratch_mid (c : Dev nD) (i : grid0.Coords) (a2 : Memref sig .tc .vmem S1024x1024 .f32) (h2 : a2.IsWhole) (a3 : Memref sig .tc .vmem S1024x1024 .i32) (h3 : a3.IsWhole) (a4 : Memref sig .tc .vmem S1024x32 .f32) (h4 : a4.IsWhole) (a5 : Memref sig .tc .vmem S1024x32 .f32) (h5 : a5.IsWhole) (a6 : Memref sig .tc .vmem S1024x32 .f32) (h6 : a6.IsWhole) (hc0 : ¬cond0_0 i) (hc1 : ¬cond0_1 i)
    (x0 : Vec F S1024x1024 .f32) (x1 : Vec F S1024x1024 .i32) (x2 : Vec F S1024x32 .f32) (xs0 : Vec F S1024x32 .f32) :
    sout0_B_0 c i a2 h2 a3 h3 a4 h4 a5 h5 a6 h6 hc0 hc1 x0 x1 x2 xs0 = k0_pay2 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz]
  simp only [View.readAt_eq_ld, h2.read_unread, h3.read_unread, h4.read_unread, h6.read_unread,
    View.ld_unit_zero (S := S1024x1024) hz, View.ld_unit_zero (S := S1024x32) hz]

/-- A step at the last column tile leaves the same update in the scratch, -/
theorem scratch_last (c : Dev nD) (i : grid0.Coords) (a2 : Memref sig .tc .vmem S1024x1024 .f32) (h2 : a2.IsWhole) (a3 : Memref sig .tc .vmem S1024x1024 .i32) (h3 : a3.IsWhole) (a4 : Memref sig .tc .vmem S1024x32 .f32) (h4 : a4.IsWhole) (a5 : Memref sig .tc .vmem S1024x32 .f32) (h5 : a5.IsWhole) (a6 : Memref sig .tc .vmem S1024x32 .f32) (h6 : a6.IsWhole) (hc0 : ¬cond0_0 i) (hc1 : cond0_1 i)
    (x0 : Vec F S1024x1024 .f32) (x1 : Vec F S1024x1024 .i32) (x2 : Vec F S1024x32 .f32) (xs0 : Vec F S1024x32 .f32) :
    sout0_C_0 c i a2 h2 a3 h3 a4 h4 a5 h5 a6 h6 hc0 hc1 x0 x1 x2 xs0 = k0_pay2 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.ld_unit_zero (S := S1024x1024) hz, View.ld_unit_zero (S := S1024x32) hz]

/-- and copies it into the output block. -/
theorem out_last (c : Dev nD) (i : grid0.Coords) (a2 : Memref sig .tc .vmem S1024x1024 .f32) (h2 : a2.IsWhole) (a3 : Memref sig .tc .vmem S1024x1024 .i32) (h3 : a3.IsWhole) (a4 : Memref sig .tc .vmem S1024x32 .f32) (h4 : a4.IsWhole) (a5 : Memref sig .tc .vmem S1024x32 .f32) (h5 : a5.IsWhole) (a6 : Memref sig .tc .vmem S1024x32 .f32) (h6 : a6.IsWhole) (hc0 : ¬cond0_0 i) (hc1 : cond0_1 i)
    (x0 : Vec F S1024x1024 .f32) (x1 : Vec F S1024x1024 .i32) (x2 : Vec F S1024x32 .f32) (xs0 : Vec F S1024x32 .f32) :
    out0_C_3 c i a2 h2 a3 h3 a4 h4 a5 h5 a6 h6 hc0 hc1 x0 x1 x2 xs0 = k0_pay2 x0 x1 x2 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S1024x32) _ hz]
  simp only [View.readAt_eq_ld, h2.read_unread, h3.read_unread, h4.read_unread, h6.read_unread,
    View.ld_unit_zero (S := S1024x1024) hz, View.ld_unit_zero (S := S1024x32) hz]

end Cert.KernelIdeal.Pieces

end
-- ==== Proof.LibSums.lean ====
/-
  Finite sums over a flat index read through quotient and remainder.

  A position q below a·b is the pair (q / b, q % b). A sum over the flat positions that meet a condition on the pair is
  the double sum over the pairs that meet it; a sum over all flat positions is the sum over tiles of the sum inside a tile.
  Stated for any commutative additive monoid and any extents.
-/
import Idealize.ShloMosaic.Lib.ValueIdx

noncomputable section

open scoped BigOperators

namespace Cert.LibSums

/-- The quotient of a flat position by the inner extent, as the outer coordinate. -/
def hi {N a b : Nat} (hN : N = a * b) (q : Fin N) : Fin a :=
  ⟨q.val / b, by have := q.isLt; subst hN; exact Nat.div_lt_of_lt_mul (by have h := Nat.mul_comm a b; omega)⟩

/-- The remainder of a flat position by the inner extent, as the inner coordinate. -/
def lo {N : Nat} (b : Nat) (hb : 0 < b) (q : Fin N) : Fin b := ⟨q.val % b, Nat.mod_lt _ hb⟩

/-- The flat position of a pair. -/
def flat {N a b : Nat} (hN : N = a * b) (k : Fin a) (p : Fin b) : Fin N :=
  ⟨k.val * b + p.val, by
    have hk := k.isLt; have hp := p.isLt; subst hN
    calc k.val * b + p.val < k.val * b + b := by omega
      _ = (k.val + 1) * b := by ring
      _ ≤ a * b := Nat.mul_le_mul_right b hk⟩

/-- The pair of a flat position as an equivalence between the flat positions below `a·b` and the pairs; its inverse is
`flat`. The round trips are `q / b · b + q % b = q`, `(k·b + p) / b = k` and `(k·b + p) % b = p` for `p < b`. -/
def pairEquiv (a b : Nat) (hb : 0 < b) : Fin (a * b) ≃ Fin a × Fin b where
  toFun q := (hi rfl q, lo b hb q)
  invFun x := flat rfl x.1 x.2
  left_inv q := by
    apply Fin.ext
    show q.val / b * b + q.val % b = q.val
    exact Nat.div_add_mod' q.val b
  right_inv x := by
    obtain ⟨k, p⟩ := x
    apply Prod.ext
    · apply Fin.ext
      show (k.val * b + p.val) / b = k.val
      rw [Nat.add_comm, Nat.add_mul_div_right _ _ hb, Nat.div_eq_of_lt p.isLt, Nat.zero_add]
    · apply Fin.ext
      show (k.val * b + p.val) % b = p.val
      rw [Nat.add_comm, Nat.add_mul_mod_self_right, Nat.mod_eq_of_lt p.isLt]

/-- A sum over the flat positions whose pair meets `P` is the double sum over the pairs that meet `P`. -/
theorem sum_filter_flat {M : Type} [AddCommMonoid M] {N a b : Nat} (hN : N = a * b) (hb : 0 < b)
    (P : Fin a → Fin b → Prop) [∀ k p, Decidable (P k p)] (f : Fin a → Fin b → M) :
    ∑ q ∈ Finset.univ.filter (fun q : Fin N => P (hi hN q) (lo b hb q)), f (hi hN q) (lo b hb q)
      = ∑ k : Fin a, ∑ p ∈ Finset.univ.filter (fun p : Fin b => P k p), f k p := by
  subst hN
  rw [Finset.sum_filter]
  refine (Fintype.sum_equiv (pairEquiv a b hb)
    (fun q : Fin (a * b) => if P (hi rfl q) (lo b hb q) then f (hi rfl q) (lo b hb q) else 0)
    (fun x : Fin a × Fin b => if P x.1 x.2 then f x.1 x.2 else 0) (fun _ => rfl)).trans ?_
  rw [Fintype.sum_prod_type]
  refine Finset.sum_congr rfl (fun k _ => ?_)
  rw [Finset.sum_filter]

/-- A sum over all flat positions is the sum over tiles of the sum inside each tile. -/
theorem sum_tiles {M : Type} [AddCommMonoid M] {N a b : Nat} (hN : N = a * b) (f : Fin N → M) :
    ∑ r : Fin N, f r = ∑ t : Fin a, ∑ i : Fin b, f (flat hN t i) := by
  subst hN
  rcases Nat.eq_zero_or_pos b with hb | hb
  · subst hb
    haveI : IsEmpty (Fin (a * 0)) := ⟨fun q => absurd q.isLt (by simp)⟩
    rw [Fintype.sum_empty]
    exact (Finset.sum_eq_zero (fun t _ => Fintype.sum_empty _)).symm
  · refine ((pairEquiv a b hb).symm.sum_comp f).symm.trans ?_
    rw [Fintype.sum_prod_type]
    rfl

end Cert.LibSums

end
-- ==== Proof.Gate.lean ====
/-
  The masked, rectified aggregation both programs compute, as one function of the three argument arrays.

  A coefficient C[i, j] is kept where the neighbour flag K[i, j] is positive (as a signed word) and replaced by zero
  elsewhere; then its positive part is taken. Row i of the result is the sum over j of that gated coefficient times
  row j of Z. The summand is also given over a natural column number (zero past the last column), so that the full
  sum over the 16384 columns can be regrouped into sixteen consecutive tiles of 1024 columns: over the extended reals
  addition is commutative and associative, which is all that regrouping needs.
-/
import Idealize.ShloMosaic.PureOps.Ideal.Laws
import Idealize.ShloMosaic.Lib.ValueIdx
import proofs.«124994_j15899968930166_1_alg».proof.Proof.LibSums

noncomputable section

open Idealize.ShloMosaic Idealize.ShloMosaic.ValueIdx
open scoped BigOperators

namespace Cert.Agg

/-- The shape of the coefficient and flag arrays, and of the value array and the result. -/
abbrev SNN : Shape := ⟨2, ![16384, 16384]⟩
abbrev SND : Shape := ⟨2, ![16384, 32]⟩

/-- The gated coefficient: the coefficient where the flag is positive, zero elsewhere, then its positive part. -/
def gate (cf : EReal) (kn : BitVec 32) : EReal :=
  max (Scalar.select (IntOp.cmpi .sgt kn 0#32) cf (Ideal.ofBits .f32 0x00000000#32)) (Ideal.ofBits .f32 0x00000000#32)

/-- The summand of result entry `i` at column number `j` (zero past the last column). -/
def term (Z : SND.Idx → EReal) (C : SNN.Idx → EReal) (K : SNN.Idx → BitVec 32) (i : SND.Idx) (j : Nat) : EReal :=
  if h : j < 16384 then gate (C (ix2 (i 0) ⟨j, h⟩)) (K (ix2 (i 0) ⟨j, h⟩)) * Z (ix2 ⟨j, h⟩ (i 1)) else 0

/-- The aggregation: entry (i, d) is the sum over every column j of the gated coefficient (i, j) times Z (j, d). -/
def agg (Z : SND.Idx → EReal) (C : SNN.Idx → EReal) (K : SNN.Idx → BitVec 32) : SND.Idx → EReal :=
  fun i => ∑ j : Fin 16384, gate (C (ix2 (i 0) j)) (K (ix2 (i 0) j)) * Z (ix2 j (i 1))

theorem term_of_lt (Z : SND.Idx → EReal) (C : SNN.Idx → EReal) (K : SNN.Idx → BitVec 32) (i : SND.Idx) (j : Fin 16384) :
    term Z C K i j.val = gate (C (ix2 (i 0) j)) (K (ix2 (i 0) j)) * Z (ix2 j (i 1)) := by
  unfold term
  rw [dif_pos j.isLt]

/-- The sum over all columns is the sum, over the sixteen tiles of 1024 columns, of the sum inside each tile. -/
theorem agg_eq_tiles (Z : SND.Idx → EReal) (C : SNN.Idx → EReal) (K : SNN.Idx → BitVec 32) (i : SND.Idx) :
    agg Z C K i = ∑ s ∈ Finset.range 16, ∑ p : Fin 1024, term Z C K i (1024 * s + p.val) := by
  unfold agg
  rw [Finset.sum_range]
  have e : (∑ j : Fin 16384, gate (C (ix2 (i 0) j)) (K (ix2 (i 0) j)) * Z (ix2 j (i 1)))
      = ∑ j : Fin 16384, term Z C K i j.val :=
    Finset.sum_congr rfl fun j _ => (term_of_lt Z C K i j).symm
  rw [e, Cert.LibSums.sum_tiles (a := 16) (b := 1024) (by norm_num) (fun j : Fin 16384 => term Z C K i j.val)]
  refine Finset.sum_congr rfl fun s _ => Finset.sum_congr rfl fun p _ => ?_
  show term Z C K i (s.val * 1024 + p.val) = term Z C K i (1024 * s.val + p.val)
  rw [Nat.mul_comm]

end Cert.Agg

end
-- ==== Proof.Payload.lean ====
/-
  The update term of one grid step, read at an entry over the extended reals.

  The step's update of a running block `acc` adds the product of the gated coefficient tile (1024 rows by 1024
  columns) with the value tile (1024 rows by 32 columns). Over the extended reals a change of float format is the
  identity and the matrix unit's product into a zero accumulator is the plain sum over the contracted index, so entry
  (r, d) of the update is `acc (r, d)` plus the sum over the tile's 1024 columns p of the gated coefficient (r, p)
  times the value (p, d). The block a run starts from is the zero block.
-/
import proofs.«124994_j15899968930166_1_alg».proof.Proof.Gen.KernelIdeal.Skeleton
import proofs.«124994_j15899968930166_1_alg».proof.Proof.Gate
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.KernelIdeal.Payload

open Cert.KernelIdeal Cert.KernelIdeal.Gen

/-- The left operand of the tile product is read at (row of the result entry, contracted index), -/
theorem lhs_0 (i : S1024x32.Idx) (q : dot_S1024x1024_S1024x32_S1024x32_1_0_0_1_n_n.contr.Idx) :
    (dot_S1024x1024_S1024x32_S1024x32_1_0_0_1_n_n.lhsIdx i q 0).val = (i 0).val := by
  unfold DotDims.lhsIdx
  rw [dif_neg (show ¬(0 : Fin S1024x1024.rank) ∈ dot_S1024x1024_S1024x32_S1024x32_1_0_0_1_n_n.lhsBatch by decide), dif_pos (show (0 : Fin S1024x1024.rank) ∈ dot_S1024x1024_S1024x32_S1024x32_1_0_0_1_n_n.lhsNonContracting by decide)]
  rfl
theorem lhs_1 (i : S1024x32.Idx) (q : dot_S1024x1024_S1024x32_S1024x32_1_0_0_1_n_n.contr.Idx) :
    (dot_S1024x1024_S1024x32_S1024x32_1_0_0_1_n_n.lhsIdx i q 1).val = (q ⟨0, by decide⟩).val :=
  dot_S1024x1024_S1024x32_S1024x32_1_0_0_1_n_n.lhsIdx_val_of_single rfl i q
/-- and the right operand at (contracted index, column of the result entry). -/
theorem rhs_0 (i : S1024x32.Idx) (q : dot_S1024x1024_S1024x32_S1024x32_1_0_0_1_n_n.contr.Idx) :
    (dot_S1024x1024_S1024x32_S1024x32_1_0_0_1_n_n.rhsIdx i q 0).val = (q ⟨0, by decide⟩).val :=
  dot_S1024x1024_S1024x32_S1024x32_1_0_0_1_n_n.rhsIdx_val_of_single rfl i q
theorem rhs_1 (i : S1024x32.Idx) (q : dot_S1024x1024_S1024x32_S1024x32_1_0_0_1_n_n.contr.Idx) :
    (dot_S1024x1024_S1024x32_S1024x32_1_0_0_1_n_n.rhsIdx i q 1).val = (i 1).val := by
  unfold DotDims.rhsIdx
  rw [dif_neg (show ¬(1 : Fin S1024x32.rank) ∈ dot_S1024x1024_S1024x32_S1024x32_1_0_0_1_n_n.rhsBatch by decide), dif_pos (show (1 : Fin S1024x32.rank) ∈ dot_S1024x1024_S1024x32_S1024x32_1_0_0_1_n_n.rhsNonContracting by decide)]
  rfl

/-- The tile product into a zero accumulator, at entry (r, d): the sum over the 1024 contracted columns. -/
theorem product_entry (L : FVec Ideal S1024x1024 .bf16) (R : FVec Ideal S1024x32 .bf16) (r : Fin 1024) (d : Fin 32) :
    matmul dot_S1024x1024_S1024x32_S1024x32_1_0_0_1_n_n none L R (constant S1024x32 .f32 0x00000000#32) (ix2 r d)
      = ∑ p : Fin 1024, L (ix2 r p) * R (ix2 p d) := by
  simp only [matmul]
  rw [Ideal.matmul_constant_zero_apply, ← Equiv.sum_comp (contrEquiv1 dot_S1024x1024_S1024x32_S1024x32_1_0_0_1_n_n 1024 rfl rfl).symm]
  refine Finset.sum_congr rfl fun k _ => ?_
  have hk := contrEquiv1_symm_val dot_S1024x1024_S1024x32_S1024x32_1_0_0_1_n_n 1024 rfl rfl k
  have el : dot_S1024x1024_S1024x32_S1024x32_1_0_0_1_n_n.lhsIdx (ix2 r d) ((contrEquiv1 dot_S1024x1024_S1024x32_S1024x32_1_0_0_1_n_n 1024 rfl rfl).symm k) = ix2 r k := funext fun a => Fin.ext (by
    match a with
    | ⟨0, _⟩ => exact lhs_0 _ _
    | ⟨1, _⟩ => exact (lhs_1 _ _).trans hk)
  have er : dot_S1024x1024_S1024x32_S1024x32_1_0_0_1_n_n.rhsIdx (ix2 r d) ((contrEquiv1 dot_S1024x1024_S1024x32_S1024x32_1_0_0_1_n_n 1024 rfl rfl).symm k) = ix2 k d := funext fun a => Fin.ext (by
    match a with
    | ⟨0, _⟩ => exact (rhs_0 _ _).trans hk
    | ⟨1, _⟩ => exact rhs_1 _ _)
  rw [el, er]

/-- Entry (r, d) of a step's update of `acc`. -/
theorem update_entry (x0 : Vec Ideal S1024x1024 .f32) (x1 : Vec Ideal S1024x1024 .i32) (x2 acc : Vec Ideal S1024x32 .f32)
    (r : Fin 1024) (d : Fin 32) :
    k0_pay2 (F := Ideal) x0 x1 x2 acc (ix2 r d)
      = acc (ix2 r d) + ∑ p : Fin 1024, Cert.Agg.gate (x0 (ix2 r p)) (x1 (ix2 r p)) * x2 (ix2 p d) := by
  unfold k0_pay2
  simp only [shapeCast_self]
  refine (addf_apply _ _ (ix2 r d)).trans ?_
  refine congrArg (acc (ix2 r d) + ·) ?_
  refine (product_entry _ _ r d).trans ?_
  rfl

/-- The block a run of steps starts from is zero everywhere. -/
theorem start_entry (j : S1024x32.Idx) : k0_pay1 (F := Ideal) j = 0 := by
  unfold k0_pay1
  simp only [shapeCast_self]
  exact Ideal.ofBits_zero_f32

end Cert.KernelIdeal.Payload

end
-- ==== Proof.Aggregate.lean ====
/-
  What the kernel's result array holds: the aggregation of the three argument arrays.

  The grid has 16 row tiles by 16 column tiles; point t works on row tile t / 16 and column tile t % 16. Its three input
  blocks are the coefficient and flag tiles (rows 1024·(t / 16) + r, columns 1024·(t % 16) + p) and the value tile
  (rows 1024·(t % 16) + p). Along a row tile's sixteen points the scratch block starts from zero and gains, at each
  point, that column tile's partial sum; at the sixteenth point the block is copied out and written back as rows
  1024·(t / 16) … of the result. So entry (i, d) of the result is zero plus the sixteen tile sums in order, which is the
  sum over all columns regrouped by tile.
-/
import proofs.«124994_j15899968930166_1_alg».proof.Proof.Gen.KernelIdeal.Value
import proofs.«124994_j15899968930166_1_alg».proof.Proof.Pieces
import proofs.«124994_j15899968930166_1_alg».proof.Proof.Payload
import proofs.«124994_j15899968930166_1_alg».proof.Proof.Gate
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.RefValue

open Cert.KernelIdeal Cert.KernelIdeal.Gen

variable (m : (ℓ : Loc nD τ sig) → Buf (Elt Ideal) ℓ) (ρ : Dev nD → PrngReg)

/-- The three input blocks of a grid point, at their literal shapes. -/
abbrev coefBlk (c : Dev nD) (t : Fin cfg0.N) : Vec Ideal S1024x1024 .f32 := iblk m c 0 t
abbrev flagBlk (c : Dev nD) (t : Fin cfg0.N) : Vec Ideal S1024x1024 .i32 := iblk m c 1 t
abbrev valBlk (c : Dev nD) (t : Fin cfg0.N) : Vec Ideal S1024x32 .f32 := iblk m c 2 t

/-- The three argument arrays as launched. -/
abbrev Zarr (c : Dev nD) : S16384x32.Idx → EReal := m ((c : Thread nD τ).loc main_arg0)
abbrev Carr (c : Dev nD) : S16384x16384.Idx → EReal := m ((c : Thread nD τ).loc main_arg1)
abbrev Karr (c : Dev nD) : S16384x16384.Idx → BitVec 32 := m ((c : Thread nD τ).loc main_arg2)

/-- The block index of each window at point t: row tile t / 16 and column tile t % 16. -/
theorem tile_of_point : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = t.val % 16 ∧ win0_2.index t (1 : Fin 2) = 0
    ∧ win0_3.index t (0 : Fin 2) = t.val / 16 ∧ win0_3.index t (1 : Fin 2) = 0 :=
  (by decide +kernel : ∀ t : Fin grid0.N, _)

/-- Entry (r, p) of the coefficient block at point t is the array's entry at row 1024·(t / 16) + r, column 1024·(t % 16) + p. -/
theorem coef_read (c : Dev nD) (t : Fin cfg0.N) (r p : Fin 1024) (I : S16384x16384.Idx)
    (h0 : (I 0).val = 1024 * (t.val / 16) + r.val) (h1 : (I 1).val = 1024 * (t.val % 16) + p.val) :
    coefBlk m c t (ix2 r p) = Carr m c I := by
  obtain ⟨e0, e1, -⟩ := tile_of_point t
  unfold coefBlk iblk
  rw [View.read_apply]
  show V m c main_arg1 _ = m (c.tc.loc main_arg1) I
  unfold V
  congr 1
  funext a
  apply Fin.ext
  match a with
  | ⟨0, _⟩ => show win0_0.index t 0 * 1024 + 1 * r.val = (I 0).val; rw [e0, h0]; omega
  | ⟨1, _⟩ => show win0_0.index t 1 * 1024 + 1 * p.val = (I 1).val; rw [e1, h1]; omega

/-- The flag block likewise. -/
theorem flag_read (c : Dev nD) (t : Fin cfg0.N) (r p : Fin 1024) (I : S16384x16384.Idx)
    (h0 : (I 0).val = 1024 * (t.val / 16) + r.val) (h1 : (I 1).val = 1024 * (t.val % 16) + p.val) :
    flagBlk m c t (ix2 r p) = Karr m c I := by
  obtain ⟨-, -, e0, e1, -⟩ := tile_of_point t
  unfold flagBlk iblk
  rw [View.read_apply]
  show V m c main_arg2 _ = m (c.tc.loc main_arg2) I
  unfold V
  congr 1
  funext a
  apply Fin.ext
  match a with
  | ⟨0, _⟩ => show win0_1.index t 0 * 1024 + 1 * r.val = (I 0).val; rw [e0, h0]; omega
  | ⟨1, _⟩ => show win0_1.index t 1 * 1024 + 1 * p.val = (I 1).val; rw [e1, h1]; omega

/-- Entry (p, d) of the value block at point t is the array's entry at row 1024·(t % 16) + p, column d. -/
theorem val_read (c : Dev nD) (t : Fin cfg0.N) (p : Fin 1024) (d : Fin 32) (I : S16384x32.Idx)
    (h0 : (I 0).val = 1024 * (t.val % 16) + p.val) (h1 : (I 1).val = d.val) :
    valBlk m c t (ix2 p d) = Zarr m c I := by
  obtain ⟨-, -, -, -, e0, e1, -⟩ := tile_of_point t
  unfold valBlk iblk
  rw [View.read_apply]
  show V m c main_arg0 _ = m (c.tc.loc main_arg0) I
  unfold V
  congr 1
  funext a
  apply Fin.ext
  match a with
  | ⟨0, _⟩ => show win0_2.index t 0 * 1024 + 1 * p.val = (I 0).val; rw [e0, h0]; omega
  | ⟨1, _⟩ => show win0_2.index t 1 * 32 + 1 * d.val = (I 1).val; rw [e1, h1]; omega

/-- The partial sum point n adds at block entry j: over the tile's 1024 columns, the gated coefficient times the value
    (zero for a number past the grid, which no step uses). -/
def tileSum (c : Dev nD) (n : Nat) (j : S1024x32.Idx) : EReal :=
  if h : n < cfg0.N then
    ∑ p : Fin 1024, Cert.Agg.gate (coefBlk m c ⟨n, h⟩ (ix2 (j 0) p)) (flagBlk m c ⟨n, h⟩ (ix2 (j 0) p)) * valBlk m c ⟨n, h⟩ (ix2 p (j 1))
  else 0

/-- At the first point of a row tile the scratch ends at the update of the zero block, whatever it held. -/
theorem step_first (c : Dev nD) (n : Nat) (hb : n < cfg0.N) (h0 : n % 16 = 0) (acc : Vec Ideal S1024x32 .f32) :
    Value.scAt0_0 m c n hb acc = k0_pay2 (coefBlk m c ⟨n, hb⟩) (flagBlk m c ⟨n, hb⟩) (valBlk m c ⟨n, hb⟩) (k0_pay1 (F := Ideal)) := by
  have h1 : ¬n % 16 = 15 := by omega
  unfold Value.scAt0_0
  rw [dif_pos h0, dif_neg h1]
  exact Pieces.scratch_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) ((hcond0_0 ⟨n, hb⟩).mpr h0) (fun h => h1 ((hcond0_1 ⟨n, hb⟩).mp h)) (iblk m c 0 ⟨n, hb⟩) (iblk m c 1 ⟨n, hb⟩) (iblk m c 2 ⟨n, hb⟩)

/-- At every later point it ends at the update of what the point before left. -/
theorem step_later (c : Dev nD) (n : Nat) (hb : n < cfg0.N) (h0 : ¬n % 16 = 0) (acc : Vec Ideal S1024x32 .f32) :
    Value.scAt0_0 m c n hb acc = k0_pay2 (coefBlk m c ⟨n, hb⟩) (flagBlk m c ⟨n, hb⟩) (valBlk m c ⟨n, hb⟩) acc := by
  unfold Value.scAt0_0
  rw [dif_neg h0]
  by_cases h1 : n % 16 = 15
  · rw [dif_pos h1]
    exact Pieces.scratch_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) (fun h => h0 ((hcond0_0 ⟨n, hb⟩).mp h)) ((hcond0_1 ⟨n, hb⟩).mpr h1) (iblk m c 0 ⟨n, hb⟩) (iblk m c 1 ⟨n, hb⟩) (iblk m c 2 ⟨n, hb⟩) acc
  · rw [dif_neg h1]
    exact Pieces.scratch_mid (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) (fun h => h0 ((hcond0_0 ⟨n, hb⟩).mp h)) (fun h => h1 ((hcond0_1 ⟨n, hb⟩).mp h)) (iblk m c 0 ⟨n, hb⟩) (iblk m c 1 ⟨n, hb⟩) (iblk m c 2 ⟨n, hb⟩) acc

/-- The same two steps at a block entry: zero plus the point's partial sum, and the old entry plus it. -/
theorem step_first_entry (c : Dev nD) (n : Nat) (hb : n < cfg0.N) (h0 : n % 16 = 0) (acc : Vec Ideal S1024x32 .f32) (j : S1024x32.Idx) :
    Value.scAt0_0 m c n hb acc j = 0 + tileSum m c n j := by
  obtain ⟨r, d, rfl⟩ : ∃ (r : Fin 1024) (d : Fin 32), j = ix2 r d := ⟨j 0, j 1, eq_ix2 j⟩
  rw [step_first m c n hb h0 acc, Payload.update_entry, Payload.start_entry]
  unfold tileSum
  rw [dif_pos hb]

theorem step_later_entry (c : Dev nD) (n : Nat) (hb : n < cfg0.N) (h0 : ¬n % 16 = 0) (acc : Vec Ideal S1024x32 .f32) (j : S1024x32.Idx) :
    Value.scAt0_0 m c n hb acc j = acc j + tileSum m c n j := by
  obtain ⟨r, d, rfl⟩ : ∃ (r : Fin 1024) (d : Fin 32), j = ix2 r d := ⟨j 0, j 1, eq_ix2 j⟩
  rw [step_later m c n hb h0 acc, Payload.update_entry]
  unfold tileSum
  rw [dif_pos hb]

/-- After point t the scratch holds, entry by entry, zero plus the partial sums of the row tile's points up to t. -/
theorem scratch_entry (c : Dev nD) (t : Fin cfg0.N) (j : S1024x32.Idx) :
    (outsAt0 m c t.val t.isLt).2 j = 0 + ∑ s ∈ Finset.range (t.val % 16 + 1), tileSum m c (16 * (t.val / 16) + s) j := by
  rw [Value.soutsAt0_0_eq m c t]
  exact Pipeline.accAt_add_apply (fun n h => Value.scAt0_0 m c n h (VS0_0.read (Elt Ideal) VS0_0.junk)) (Value.scAt0_0 m c)
    (fun _ => 0) (tileSum m c) (16 * (t.val / 16)) 15
    (fun h i => step_first_entry m c _ h (by omega) _ i)
    (fun n h acc i hlt hle => step_later_entry m c n h (by omega) acc i)
    (t.val % 16) (by omega) _ j

/-- At the last point of a row tile the output block is the scratch block. -/
theorem out_eq_scratch (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm

/-- Point n's partial sum at block entry j is the tile's share of the full sum for array entry i = (1024·(n / 16) + j₀, j₁). -/
theorem tileSum_eq (c : Dev nD) (n : Nat) (hn : n < cfg0.N) (j : S1024x32.Idx) (i : S16384x32.Idx)
    (hi0 : (i 0).val = 1024 * (n / 16) + (j 0).val) (hi1 : (i 1).val = (j 1).val) :
    tileSum m c n j = ∑ p : Fin 1024, Cert.Agg.term (Zarr m c) (Carr m c) (Karr m c) i (1024 * (n % 16) + p.val) := by
  unfold tileSum
  rw [dif_pos hn]
  refine Finset.sum_congr rfl fun p _ => ?_
  have hp : 1024 * (n % 16) + p.val < 16384 := by have := p.isLt; omega
  unfold Cert.Agg.term
  rw [dif_pos hp,
    coef_read m c ⟨n, hn⟩ (j 0) p (ix2 (i 0) ⟨1024 * (n % 16) + p.val, hp⟩) hi0 rfl,
    flag_read m c ⟨n, hn⟩ (j 0) p (ix2 (i 0) ⟨1024 * (n % 16) + p.val, hp⟩) hi0 rfl,
    val_read m c ⟨n, hn⟩ p (j 1) (ix2 ⟨1024 * (n % 16) + p.val, hp⟩ (i 1)) rfl hi1]

/-- So the block written back at the last point of a row tile is, entry by entry, the aggregation at the array entry it lands on. -/
theorem block_entry (c : Dev nD) (t : Fin cfg0.N) (h15 : t.val % 16 = 15) (j : S1024x32.Idx) (i : S16384x32.Idx)
    (hi0 : (i 0).val = 1024 * (t.val / 16) + (j 0).val) (hi1 : (i 1).val = (j 1).val) :
    (outsAt0 m c t.val t.isLt).1 j = Cert.Agg.agg (Zarr m c) (Carr m c) (Karr m c) i := by
  have h0 : ¬t.val % 16 = 0 := by omega
  have hN : cfg0.N = 256 := N_0
  have ht := t.isLt
  rw [out_eq_scratch m c t h0 h15, scratch_entry, zero_add, h15, Cert.Agg.agg_eq_tiles]
  refine Finset.sum_congr rfl fun s hs => ?_
  have hs' : s < 16 := Finset.mem_range.mp hs
  have hn : 16 * (t.val / 16) + s < cfg0.N := by omega
  have hq : (16 * (t.val / 16) + s) / 16 = t.val / 16 := by omega
  have hr : (16 * (t.val / 16) + s) % 16 = s := by omega
  rw [tileSum_eq m c _ hn j i (by rw [hq]; exact hi0) hi1, hr]

/-- The result array's contents: the aggregation of the arguments as launched. -/
abbrev result (c : Dev nD) : Buf (Elt Ideal) ((c : Thread nD τ).loc main_v0) :=
  Cert.Agg.agg (Zarr m c) (Carr m c) (Karr m c)

set_option maxRecDepth 131072 in
/-- What a flushing point writes back is its block of the aggregation. -/
theorem flushed_eq (c : Dev nD) (t : Fin cfg0.N) (hf : (cfg0.win 3).flush t = true) :
    (dats m 0 c).flushed 3 t = ((cfg0.win 3).blk t).view.read (Elt Ideal) (result m c) := by
  have h15 := (flush0_3 t).mp hf
  obtain ⟨-, -, -, -, -, -, e0, e1⟩ := tile_of_point t
  rw [Value.flushed3]
  funext j
  rw [View.read_apply]
  show (outsAt0 m c t.val t.isLt).1 ((cfg0.win 3).xinj (grid0.coords t) j) = _
  refine block_entry m c t h15 ((cfg0.win 3).xinj (grid0.coords t) j) (((cfg0.win 3).blk t).view.emb j) ?_ ?_
  · show win0_3.index t (0 : Fin 2) * 1024 + 1 * (j 0).val = 1024 * (t.val / 16) + (j 0).val
    rw [e0]; omega
  · show win0_3.index t (1 : Fin 2) * 32 + 1 * (j 1).val = (j 1).val
    rw [e1]; omega

/-- An entry of the result array lies in a point's block when each coordinate lies in the block's range. -/
theorem mem_block (t : Fin cfg0.N) (i : S16384x32.Idx) :
    i ∈ ((cfg0.win 3).blk t).view.set ↔ ∀ a : Fin 2, win0_3.index t a * S1024x32.size a ≤ (i a).val ∧ (i a).val < win0_3.index t a * S1024x32.size a + S1024x32.size a := by
  show i ∈ ((View.whole main_v0).slice (win0_3.rect t)).set ↔ _
  rw [View.set_slice_whole, Rect.mem_set_unit]
  exact Iff.rfl

/-- Every entry (i, d) is written back by the last point of its row tile, 16·(i / 1024) + 15. -/
theorem cover (i : S16384x32.Idx) : ∃ t : Fin cfg0.N, (cfg0.win 3).flush t = true ∧ i ∈ ((cfg0.win 3).blk t).view.set := by
  have h0 : (i 0).val < 16384 := (i 0).isLt
  have h1 : (i 1).val < 32 := (i 1).isLt
  have hN : cfg0.N = 256 := N_0
  obtain ⟨t, ht⟩ : ∃ t : Fin cfg0.N, t.val = 16 * ((i 0).val / 1024) + 15 := ⟨⟨16 * ((i 0).val / 1024) + 15, by omega⟩, rfl⟩
  obtain ⟨-, -, -, -, -, -, e0, e1⟩ := tile_of_point t
  refine ⟨t, (flush0_3 t).mpr (by omega), ?_⟩
  rw [mem_block]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 32 ≤ (i 1).val ∧ (i 1).val < win0_3.index t (1 : Fin 2) * 32 + 32
    rw [e1]; omega

/-- After the run the result array holds the aggregation. -/
theorem final (c : Dev nD) : (dats m 0 c).arrAt 3 cfg0.N = result m c :=
  (dats m 0 c).arrAt_eq_of_cover 3 (result m c) (flushed_eq m c) cover

/-- The kernel's run: it terminates with the result array at the aggregation and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RefValue

end
-- ==== Proof.RefAgg.lean ====
/-
  The reference computes the aggregation.

  Its program compares the flags with zero, selects the coefficient or zero, takes the maximum with zero, and
  contracts the result's columns with the rows of the value array. Read at an entry over the extended reals, the first
  three steps are the gated coefficient and the contraction is the sum over all 16384 columns.
-/
import proofs.«124994_j15899968930166_1_alg».proof.Proof.Gen.ReferenceIdeal.Read
import proofs.«124994_j15899968930166_1_alg».proof.Proof.Gate

noncomputable section

open Idealize.ShloMosaic Idealize.ShloMosaic.TcCoe Idealize.ShloMosaic.ValueIdx
open scoped BigOperators

namespace Cert.ReferenceIdeal.RefValue

open Cert.ReferenceIdeal Cert.ReferenceIdeal.Gen Cert.ReferenceIdeal.Read

/-- The reference's rectified, masked coefficient array at an entry is the gated coefficient there. -/
theorem gated_entry (x1 : (⟨S16384x16384, .f32⟩ : BufTy).Contents (Elt Ideal)) (x2 : (⟨S16384x16384, .i32⟩ : BufTy).Contents (Elt Ideal))
    (i : S16384x16384.Idx) :
    val_main_v4 (F := Ideal) x1 x2 i = Cert.Agg.gate (x1 i) (x2 i) := by
  rw [val_main_v4_apply, val_main_v2_apply, val_main_v1_apply, val_main_v0_apply, val_main_c_apply,
    val_main_call0_v1_apply, val_main_call0_v0_apply, val_main_cst_apply, val_main_v3_apply, val_main_cst_0_apply]
  rfl

/-- The reference's result is the aggregation of its three arguments. -/
theorem result_eq (x0 : (⟨S16384x32, .f32⟩ : BufTy).Contents (Elt Ideal)) (x1 : (⟨S16384x16384, .f32⟩ : BufTy).Contents (Elt Ideal))
    (x2 : (⟨S16384x16384, .i32⟩ : BufTy).Contents (Elt Ideal)) :
    val_main_v5 (F := Ideal) x0 x1 x2 = Cert.Agg.agg x0 x1 x2 := by
  funext i
  rw [val_main_v5_apply]
  unfold Cert.Agg.agg
  refine Finset.sum_congr rfl fun k _ => ?_
  rw [gated_entry]
  have el : lidx_main_v5 i k = ix2 (i 0) k := funext fun a => Fin.ext (by
    match a with
    | ⟨0, _⟩ => rfl
    | ⟨1, _⟩ => rfl)
  have er : ridx_main_v5 i k = ix2 k (i 1) := funext fun a => Fin.ext (by
    match a with
    | ⟨0, _⟩ => rfl
    | ⟨1, _⟩ => rfl)
  rw [el, er]
  rfl

end Cert.ReferenceIdeal.RefValue

end
-- ==== Proof.lean ====
/-
  A masked, rectified coefficient matrix times a value matrix, tiled, against the same product taken whole.

  Both programs take a value array Z (16384 by 32), a coefficient array C and an integer flag array K (16384 by 16384
  each). A coefficient is kept where its flag is positive and replaced by zero elsewhere, and then its positive part is
  taken; row i of the result is the sum over j of that gated coefficient (i, j) times row j of Z. The reference forms
  the gated matrix and contracts it with Z in one product. The kernel walks a 16 by 16 grid of 1024 by 1024 tiles: along
  a row of tiles it starts a 1024 by 32 running block at zero, adds each tile's product with the matching 1024 rows of
  Z, and writes the block out after the sixteenth tile. Over the extended reals a change of float format is the
  identity and a product into a zero accumulator is a plain sum, so the kernel's entry is zero plus sixteen tile sums
  and the reference's is one sum over 16384 columns: the same sum regrouped, by commutativity and associativity of
  addition alone. No finiteness of the inputs is used.

  The three frame claims are the generated frames (the reference's is its generated run with the result dropped), the
  idealization rewrote nothing, and the value claim sets the kernel's run, read as the aggregation
  (Proof/Aggregate.lean), beside the reference's run, read as the same aggregation (Proof/RefAgg.lean).
-/
import proofs.«124994_j15899968930166_1_alg».proof.Defs
import proofs.«124994_j15899968930166_1_alg».proof.Proof.Gen.Kernel
import proofs.«124994_j15899968930166_1_alg».proof.Proof.Gen.Kernel.Skeleton
import proofs.«124994_j15899968930166_1_alg».proof.Proof.Gen.Kernel.Launch
import proofs.«124994_j15899968930166_1_alg».proof.Proof.Gen.Kernel.Points
import proofs.«124994_j15899968930166_1_alg».proof.Proof.Gen.Kernel.Frame
import proofs.«124994_j15899968930166_1_alg».proof.Proof.Gen.KernelIdeal
import proofs.«124994_j15899968930166_1_alg».proof.Proof.Gen.KernelIdeal.Skeleton
import proofs.«124994_j15899968930166_1_alg».proof.Proof.Gen.KernelIdeal.Launch
import proofs.«124994_j15899968930166_1_alg».proof.Proof.Gen.KernelIdeal.Points
import proofs.«124994_j15899968930166_1_alg».proof.Proof.Gen.KernelIdeal.Frame
import proofs.«124994_j15899968930166_1_alg».proof.Proof.Gen.ReferenceIdeal
import proofs.«124994_j15899968930166_1_alg».proof.Proof.Gen.Pre_finite_inputs
import proofs.«124994_j15899968930166_1_alg».proof.Proof.Gen.KernelIdeal.Value
import proofs.«124994_j15899968930166_1_alg».proof.Proof.Gen.ReferenceIdeal.Run
import proofs.«124994_j15899968930166_1_alg».proof.Proof.Gen.ReferenceIdeal.Read
import proofs.«124994_j15899968930166_1_alg».proof.Proof.Aggregate
import proofs.«124994_j15899968930166_1_alg».proof.Proof.RefAgg
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on Z, C and K both programs end with the aggregation of those arrays as their result. -/
theorem algebraic : Cert.algebraic_KernelIdeal_ReferenceIdeal := by
  intro m ρ m' ρ' _ hagree
  refine ⟨fun c => Cert.KernelIdeal.RefValue.result m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
